-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S768x512 : Shape := ⟨2, ![768, 512]⟩
abbrev S512 : Shape := ⟨1, ![512]⟩
abbrev S512x512 : Shape := ⟨2, ![512, 512]⟩
abbrev S512x768 : Shape := ⟨2, ![512, 768]⟩
abbrev S768 : Shape := ⟨1, ![768]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x768 : S_.BroadcastsInDim S512x768 (![] : Fin 0 → Fin S512x768.rank)
  reducesTo_S512x768_S_d0_1 : S512x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S512 .f32) (main_arg5 : FVec F S512x768 .f32) (main_arg6 : FVec F S768 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x768 .f32 := Host.absf main_arg5
  let main_cst_8 : FVec F S_ .f32 := constant S_ .f32 0x7F800000#32
  let main_v25 : FVec F S512x768 .f32 := broadcastInDim S512x768 ![] bcast_S_S512x768 main_cst_8
  let main_v26 : IVec S512x768 1 := cmpf .olt main_v24 main_v25
  let main_c_9 : IVec S_ 1 := constantI S_ 1 1#1
  let main_v27 : IVec S_ 1 := (fun x v => Host.reduce IntOp.andi x v reducesTo_S512x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S64x512x768 .f32) (main_arg1 : FVec F S768x512 .f32) (main_arg2 : FVec F S512 .f32) (main_arg3 : FVec F S512x512 .f32) (main_arg4 : FVec F S512 .f32) (main_arg5 : FVec F S512x768 .f32) (main_arg6 : FVec F S768 .f32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  let main_v4 : FVec F S768x512 .f32 := Host.absf main_arg1
  let main_cst_0 : FVec F S_ .f32 := constant S_ .f32 0x7F800000#32
  let main_v5 : FVec F S768x512 .f32 := broadcastInDim S768x512 ![] bcast_S_S768x512 main_cst_0
  let main_v6 : IVec S768x512 1 := cmpf .olt main_v4 main_v5
  let main_c_1 : IVec S_ 1 := constantI S_ 1 1#1
  let main_v7 : IVec S_ 1 := (fun x v => Host.reduce IntOp.andi x v reducesTo_S768x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S64x512x768 : Shape := ⟨3, ![64, 512, 768]⟩
abbrev S768x512 : Shape := ⟨2, ![768, 512]⟩
abbrev S512 : Shape := ⟨1, ![512]⟩
abbrev S512x512 : Shape := ⟨2, ![512, 512]⟩
abbrev S512x768 : Shape := ⟨2, ![512, 768]⟩
abbrev S768 : Shape := ⟨1, ![768]⟩
abbrev S64x768 : Shape := ⟨2, ![64, 768]⟩
abbrev S8x512x768 : Shape := ⟨3, ![8, 512, 768]⟩
abbrev S8x768 : Shape := ⟨2, ![8, 768]⟩
abbrev S64x512 : Shape := ⟨2, ![64, 512]⟩
abbrev S1x512 : Shape := ⟨2, ![1, 512]⟩
abbrev S1x768 : Shape := ⟨2, ![1, 768]⟩
abbrev S64x1x768 : Shape := ⟨3, ![64, 1, 768]⟩
abbrev S64x128x768 : Shape := ⟨3, ![64, 128, 768]⟩

abbrev nBuf : Space → Nat
  | .hbm => 11
  | .vmem => 12
  | .smem => 0
  | _ => 0

abbrev bufTy : (tb : Table) → Fin (tcTables nBuf tb) → BufTy
  | .hbm, ⟨0, _⟩ => ⟨S64x512x768, .f32⟩
  | .hbm, ⟨1, _⟩ => ⟨S768x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x768, .f32⟩
  | .hbm, ⟨6, _⟩ => ⟨S768, .f32⟩
  | .hbm, ⟨7, _⟩ => ⟨S64x768, .f32⟩
  | .hbm, ⟨8, _⟩ => ⟨S64x768, .f32⟩
  | .hbm, ⟨9, _⟩ => ⟨S64x1x768, .f32⟩
  | .hbm, ⟨10, _⟩ => ⟨S64x128x768, .f32⟩
  | .local _ .vmem, ⟨0, _⟩ => ⟨S8x512x768, .f32⟩
  | .local _ .vmem, ⟨1, _⟩ => ⟨S8x512x768, .f32⟩
  | .local _ .vmem, ⟨2, _⟩ => ⟨S8x768, .f32⟩
  | .local _ .vmem, ⟨3, _⟩ => ⟨S8x768, .f32⟩
  | .local _ .vmem, ⟨4, _⟩ => ⟨S64x768, .f32⟩
  | .local _ .vmem, ⟨5, _⟩ => ⟨S768x512, .f32⟩
  | .local _ .vmem, ⟨6, _⟩ => ⟨S512, .f32⟩
  | .local _ .vmem, ⟨7, _⟩ => ⟨S512x512, .f32⟩
  | .local _ .vmem, ⟨8, _⟩ => ⟨S512, .f32⟩
  | .local _ .vmem, ⟨9, _⟩ => ⟨S512x768, .f32⟩
  | .local _ .vmem, ⟨10, _⟩ => ⟨S768, .f32⟩
  | .local _ .vmem, ⟨11, _⟩ => ⟨S64x768, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S768x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S768 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x768 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  inb_S8x512x768_S8x512x768_0_0_0 : ∀ a, (![0, 0, 0] : Fin 3 → Nat) a + S8x512x768.size a ≤ S8x512x768.size a
  h_S8x512x768 : 0 < S8x512x768.numel
  reduces_S8x512x768_S8x768 : S8x512x768.Reduces [1] S8x768
  inb_S8x768_S8x768_0_0 : ∀ a, (![0, 0] : Fin 2 → Nat) a + S8x768.size a ≤ S8x768.size a
  h_S8x768 : 0 < S8x768.numel
  inb_S64x768_S64x768_0_0 : ∀ a, (![0, 0] : Fin 2 → Nat) a + S64x768.size a ≤ S64x768.size a
  h_S64x768 : 0 < S64x768.numel
  shapeCasts_S64x768_S64x768 : S64x768.ShapeCasts S64x768
  bitsLt_bf16_f32 : FTy.bits .bf16 < FTy.bits .f32
  inb_S768x512_S768x512_0_0 : ∀ a, (![0, 0] : Fin 2 → Nat) a + S768x512.size a ≤ S768x512.size a
  h_S768x512 : 0 < S768x512.numel
  inb_S512_S512_0 : ∀ a, (![0] : Fin 1 → Nat) a + S512.size a ≤ S512.size a
  h_S512 : 0 < S512.numel
  shapeCasts_S512_S1x512 : S512.ShapeCasts S1x512
  broadcasts_S1x512_S64x512 : S1x512.Broadcasts S64x512
  inb_S512x512_S512x512_0_0 : ∀ a, (![0, 0] : Fin 2 → Nat) a + S512x512.size a ≤ S512x512.size a
  h_S512x512 : 0 < S512x512.numel
  inb_S512x768_S512x768_0_0 : ∀ a, (![0, 0] : Fin 2 → Nat) a + S512x768.size a ≤ S512x768.size a
  h_S512x768 : 0 < S512x768.numel
  inb_S768_S768_0 : ∀ a, (![0] : Fin 1 → Nat) a + S768.size a ≤ S768.size a
  h_S768 : 0 < S768.numel
  shapeCasts_S768_S1x768 : S768.ShapeCasts S1x768
  broadcasts_S1x768_S64x768 : S1x768.Broadcasts S64x768
  bcast_S64x768_S64x1x768_0_2 : S64x768.BroadcastsInDim S64x1x768 (![0, 2] : Fin 2 → Fin S64x1x768.rank)
  bcast_S64x1x768_S64x128x768_0_1_2 : S64x1x768.BroadcastsInDim S64x128x768 (![0, 1, 2] : Fin 3 → Fin S64x128x768.rank)
  dot_S64x768_S768x512_S64x512_1_0_0_1_n_n_wf : DotDims.WF S64x768 S768x512 S64x512 [1] [0] [0] [1] [] []
  dot_S64x512_S512x512_S64x512_1_0_0_1_n_n_wf : DotDims.WF S64x512 S512x512 S64x512 [1] [0] [0] [1] [] []
  dot_S64x512_S512x768_S64x768_1_0_0_1_n_n_wf : DotDims.WF S64x512 S512x768 S64x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x768.size a ≤ S64x512x768.size a
  hwx0_0 : ∀ i : grid0.Coords, EltTy.bits .f32 = 32 ∨ (Rect.block (s := S64x512x768) S8x512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x768.size a ≤ S64x768.size a
  hwx0_1 : ∀ i : grid0.Coords, EltTy.bits .f32 = 32 ∨ (Rect.block (s := S64x768) S8x768.size (cc0_transform_1 i) (hinb0_1 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x768.size a ≤ S64x768.size a
  hwx1_0 : ∀ i : grid1.Coords, EltTy.bits .f32 = 32 ∨ (Rect.block (s := S64x768) S64x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x512.size a ≤ S768x512.size a
  hwx1_1 : ∀ i : grid1.Coords, EltTy.bits .f32 = 32 ∨ (Rect.block (s := S768x512) S768x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x768.size a ≤ S512x768.size a
  hwx1_5 : ∀ i : grid1.Coords, EltTy.bits .f32 = 32 ∨ (Rect.block (s := S512x768) S512x768.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S768.size a ≤ S768.size a
  hwx1_6 : ∀ i : grid1.Coords, EltTy.bits .f32 = 32 ∨ (Rect.block (s := S768) S768.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x768.size a ≤ S64x768.size a
  hwx1_7 : ∀ i : grid1.Coords, EltTy.bits .f32 = 32 ∨ (Rect.block (s := S64x768) S64x768.size (cc1_transform_7 i) (hinb1_7 i)).WholeWords (EltTy.packing .f32)

variable [Facts₀]

def dot_S64x768_S768x512_S64x512_1_0_0_1_n_n : DotDims S64x768 S768x512 S64x512 where
  lhsContracting := [1]
  rhsContracting := [0]
  lhsNonContracting := [0]
  rhsNonContracting := [1]
  lhsBatch := []
  rhsBatch := []
  wf := dot_S64x768_S768x512_S64x512_1_0_0_1_n_n_wf
def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S64x512_S512x768_S64x768_1_0_0_1_n_n : DotDims S64x512 S512x768 S64x768 where
  lhsContracting := [1]
  rhsContracting := [0]
  lhsNonContracting := [0]
  rhsNonContracting := [1]
  lhsBatch := []
  rhsBatch := []
  wf := dot_S64x512_S512x768_S64x768_1_0_0_1_n_n_wf

abbrev win0_0 : Pipeline.Window sig grid0 :=
  Pipeline.Window.ofSpec (Memref.whole main_arg0) S8x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x768.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S64x768.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S768x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S512x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S768.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S64x768.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S64x512x768 : Shape := ⟨3, ![64, 512, 768]⟩
abbrev S768x512 : Shape := ⟨2, ![768, 512]⟩
abbrev S512 : Shape := ⟨1, ![512]⟩
abbrev S512x512 : Shape := ⟨2, ![512, 512]⟩
abbrev S512x768 : Shape := ⟨2, ![512, 768]⟩
abbrev S768 : Shape := ⟨1, ![768]⟩
abbrev S64x512x512 : Shape := ⟨3, ![64, 512, 512]⟩
abbrev S_ : Shape := ⟨0, ![]⟩
abbrev S64x512 : Shape := ⟨2, ![64, 512]⟩
abbrev S64x1x512 : Shape := ⟨3, ![64, 1, 512]⟩
abbrev S1x1x512 : Shape := ⟨3, ![1, 1, 512]⟩
abbrev S64x768 : Shape := ⟨2, ![64, 768]⟩
abbrev S64x1x768 : Shape := ⟨3, ![64, 1, 768]⟩
abbrev S1x1x768 : Shape := ⟨3, ![1, 1, 768]⟩
abbrev S64x128x768 : Shape := ⟨3, ![64, 128, 768]⟩

abbrev nBuf : Space → Nat
  | .hbm => 50
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S768x512, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x768, .f32⟩
  | .hbm, ⟨6, _⟩ => ⟨S768, .f32⟩
  | .hbm, ⟨7, _⟩ => ⟨S64x512x512, .f32⟩
  | .hbm, ⟨8, _⟩ => ⟨S_, .f32⟩
  | .hbm, ⟨9, _⟩ => ⟨S64x512, .f32⟩
  | .hbm, ⟨10, _⟩ => ⟨S64x1x512, .f32⟩
  | .hbm, ⟨11, _⟩ => ⟨S_, .f32⟩
  | .hbm, ⟨12, _⟩ => ⟨S64x1x512, .f32⟩
  | .hbm, ⟨13, _⟩ => ⟨S64x1x512, .f32⟩
  | .hbm, ⟨14, _⟩ => ⟨S1x1x512, .f32⟩
  | .hbm, ⟨15, _⟩ => ⟨S64x1x512, .f32⟩
  | .hbm, ⟨16, _⟩ => ⟨S64x1x512, .f32⟩
  | .hbm, ⟨17, _⟩ => ⟨S64x512x512, .f32⟩
  | .hbm, ⟨18, _⟩ => ⟨S_, .f32⟩
  | .hbm, ⟨19, _⟩ => ⟨S64x512x512, .f32⟩
  | .hbm, ⟨20, _⟩ => ⟨S64x512x512, .f32⟩
  | .hbm, ⟨21, _⟩ => ⟨S64x512x512, .f32⟩
  | .hbm, ⟨22, _⟩ => ⟨S_, .f32⟩
  | .hbm, ⟨23, _⟩ => ⟨S64x512, .f32⟩
  | .hbm, ⟨24, _⟩ => ⟨S64x1x512, .f32⟩
  | .hbm, ⟨25, _⟩ => ⟨S_, .f32⟩
  | .hbm, ⟨26, _⟩ => ⟨S64x1x512, .f32⟩
  | .hbm, ⟨27, _⟩ => ⟨S64x1x512, .f32⟩
  | .hbm, ⟨28, _⟩ => ⟨S1x1x512, .f32⟩
  | .hbm, ⟨29, _⟩ => ⟨S64x1x512, .f32⟩
  | .hbm, ⟨30, _⟩ => ⟨S64x1x512, .f32⟩
  | .hbm, ⟨31, _⟩ => ⟨S64x512x512, .f32⟩
  | .hbm, ⟨32, _⟩ => ⟨S_, .f32⟩
  | .hbm, ⟨33, _⟩ => ⟨S64x512x512, .f32⟩
  | .hbm, ⟨34, _⟩ => ⟨S64x512x512, .f32⟩
  | .hbm, ⟨35, _⟩ => ⟨S64x512x768, .f32⟩
  | .hbm, ⟨36, _⟩ => ⟨S_, .f32⟩
  | .hbm, ⟨37, _⟩ => ⟨S64x768, .f32⟩
  | .hbm, ⟨38, _⟩ => ⟨S64x1x768, .f32⟩
  | .hbm, ⟨39, _⟩ => ⟨S_, .f32⟩
  | .hbm, ⟨40, _⟩ => ⟨S64x1x768, .f32⟩
  | .hbm, ⟨41, _⟩ => ⟨S64x1x768, .f32⟩
  | .hbm, ⟨42, _⟩ => ⟨S1x1x768, .f32⟩
  | .hbm, ⟨43, _⟩ => ⟨S64x1x768, .f32⟩
  | .hbm, ⟨44, _⟩ => ⟨S64x1x768, .f32⟩
  | .hbm, ⟨45, _⟩ => ⟨S64x512x768, .f32⟩
  | .hbm, ⟨46, _⟩ => ⟨S_, .f32⟩
  | .hbm, ⟨47, _⟩ => ⟨S64x512x768, .f32⟩
  | .hbm, ⟨48, _⟩ => ⟨S64x512x768, .f32⟩
  | .hbm, ⟨49, _⟩ => ⟨S64x128x768, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call0_cst : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call1_cst : Ref sig .tc := ⟨.hbm, 32, rfl⟩
abbrev main_call1_v0 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call2_cst : Ref sig .tc := ⟨.hbm, 46, rfl⟩
abbrev main_call2_v0 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]

class Facts₀ : Prop where
  reducesTo_S64x512x512_S64x512_d1 : S64x512x512.ReducesTo [1] S64x512
  h_S_ : 0 < S_.numel
  bcast_S64x512_S64x1x512_0_2 : S64x512.BroadcastsInDim S64x1x512 (![0, 2] : Fin 2 → Fin S64x1x512.rank)
  bcast_S_S64x1x512 : S_.BroadcastsInDim S64x1x512 (![] : Fin 0 → Fin S64x1x512.rank)
  bcast_S512_S1x1x512_2 : S512.BroadcastsInDim S1x1x512 (![2] : Fin 1 → Fin S1x1x512.rank)
  bcast_S1x1x512_S64x1x512_0_1_2 : S1x1x512.BroadcastsInDim S64x1x512 (![0, 1, 2] : Fin 3 → Fin S64x1x512.rank)
  bcast_S64x1x512_S64x512x512_0_1_2 : S64x1x512.BroadcastsInDim S64x512x512 (![0, 1, 2] : Fin 3 → Fin S64x512x512.rank)
  bcast_S_S64x512x512 : S_.BroadcastsInDim S64x512x512 (![] : Fin 0 → Fin S64x512x512.rank)
  reducesTo_S64x512x768_S64x768_d1 : S64x512x768.ReducesTo [1] S64x768
  bcast_S64x768_S64x1x768_0_2 : S64x768.BroadcastsInDim S64x1x768 (![0, 2] : Fin 2 → Fin S64x1x768.rank)
  bcast_S_S64x1x768 : S_.BroadcastsInDim S64x1x768 (![] : Fin 0 → Fin S64x1x768.rank)
  bcast_S768_S1x1x768_2 : S768.BroadcastsInDim S1x1x768 (![2] : Fin 1 → Fin S1x1x768.rank)
  bcast_S1x1x768_S64x1x768_0_1_2 : S1x1x768.BroadcastsInDim S64x1x768 (![0, 1, 2] : Fin 3 → Fin S64x1x768.rank)
  bcast_S64x1x768_S64x512x768_0_1_2 : S64x1x768.BroadcastsInDim S64x512x768 (![0, 1, 2] : Fin 3 → Fin S64x512x768.rank)
  bcast_S_S64x512x768 : S_.BroadcastsInDim S64x512x768 (![] : Fin 0 → Fin S64x512x768.rank)
  slices_S64x512x768_S64x128x768_0_0_0 : S64x512x768.Slices ![0, 0, 0] S64x128x768
  dot_S64x512x768_S768x512_S64x512x512_2_0_01_1_n_n_wf : DotDims.WF S64x512x768 S768x512 S64x512x512 [2] [0] [0, 1] [1] [] []
  dot_S64x512x512_S512x512_S64x512x512_2_0_01_1_n_n_wf : DotDims.WF S64x512x512 S512x512 S64x512x512 [2] [0] [0, 1] [1] [] []
  dot_S64x512x512_S512x768_S64x512x768_2_0_01_1_n_n_wf : DotDims.WF S64x512x512 S512x768 S64x512x768 [2] [0] [0, 1] [1] [] []

variable [Facts₀]

def dot_S64x512x768_S768x512_S64x512x512_2_0_01_1_n_n : DotDims S64x512x768 S768x512 S64x512x512 where
  lhsContracting := [2]
  rhsContracting := [0]
  lhsNonContracting := [0, 1]
  rhsNonContracting := [1]
  lhsBatch := []
  rhsBatch := []
  wf := dot_S64x512x768_S768x512_S64x512x512_2_0_01_1_n_n_wf
def dot_S64x512x512_S512x512_S64x512x512_2_0_01_1_n_n : DotDims S64x512x512 S512x512 S64x512x512 where
  lhsContracting := [2]
  rhsContracting := [0]
  lhsNonContracting := [0, 1]
  rhsNonContracting := [1]
  lhsBatch := []
  rhsBatch := []
  wf := dot_S64x512x512_S512x512_S64x512x512_2_0_01_1_n_n_wf
def dot_S64x512x512_S512x768_S64x512x768_2_0_01_1_n_n : DotDims S64x512x512 S512x768 S64x512x768 where
  lhsContracting := [2]
  rhsContracting := [0]
  lhsNonContracting := [0, 1]
  rhsNonContracting := [1]
  lhsBatch := []
  rhsBatch := []
  wf := dot_S64x512x512_S512x768_S64x512x768_2_0_01_1_n_n_wf

class Facts : Prop extends Facts₀ where

variable [Facts]
-- ==== Proof.Finite.lean ====
import proofs.«140486_j90683939487935_1_alg».proof.Pre_finite_inputs
import proofs.«140486_j90683939487935_1_alg».proof.Proof.Gen.Pre_finite_inputs
import Idealize.ShloMosaic.PureOps.Ideal
import Idealize.ShloMosaic.Lib.ReduceAll
import Idealize.ShloMosaic.Lib.ValueIdx
import Mathlib.Data.EReal.Basic

/-!
# From the finiteness precondition to real entries

The precondition is the conjunction, over the seven float inputs, of "every entry `x` satisfies
`|x| < +∞`".  At the ideal instance a float is an extended real, `|x|` is `max x (-x)`, and the
comparison against `+∞` is the strict order of `EReal`.  An extended real whose absolute value lies
strictly below `⊤` is neither `⊤` nor `⊥`, hence the coercion of a real number.  So the
precondition says that each input array is the coercion of an array of real numbers.
-/

noncomputable section

namespace Cert.Fin7

open Idealize.ShloMosaic Cert.Pre_finite_inputs

/-- An array of extended reals all of whose entries are real numbers. -/
def IsReal {S : Shape} (x : S.Idx → EReal) : Prop := ∃ r : S.Idx → ℝ, x = fun i => (r i : EReal)

/-- The shape of rank zero has exactly one index. -/
instance : Subsingleton S_.Idx := ⟨fun a b => funext fun d => d.elim0⟩

/-- The single-precision pattern `0x7F800000` (all-ones exponent, zero fraction, sign clear) is `+∞`. -/
theorem ofBits_inf : Ideal.ofBits .f32 0x7F800000#32 = (⊤ : EReal) := by
  simp [Ideal.ofBits, Ideal.ieee]

/-- An extended real whose absolute value `max a (-a)` is strictly below `⊤` is a real number:
    `a = ⊤` gives `max ⊤ ⊥ = ⊤` and `a = ⊥` gives `max ⊥ ⊤ = ⊤`, neither below `⊤`. -/
theorem exists_real_of_abs_lt_top (a : EReal) (h : max a (-a) < ⊤) : ∃ r : ℝ, a = (r : EReal) := by
  induction a using EReal.rec with
  | bot => simp at h
  | coe r => exact ⟨r, rfl⟩
  | top => simp at h

/-- One conjunct of the precondition: if the conjunction over all entries of the comparison
    `|x i| < +∞` is true, then `x` is an array of real numbers. -/
theorem isReal_of_all {S : Shape} {axes : List (Fin S.rank)} (x : FVec Ideal S .f32)
    (hb : S_.BroadcastsInDim S (![] : Fin 0 → Fin S.rank)) (hr : S.ReducesTo axes S_)
    (h0 : 0 < S_.numel)
    (e : Host.reduce IntOp.andi
          (cmpf .olt (Host.absf x) (broadcastInDim S ![] hb (constant S_ .f32 0x7F800000#32)))
          (constantI S_ 1 1#1) hr h0 ValueIdx.ix0 = 1#1) :
    IsReal x := by
  have hall : ∀ i, max (x i) (-(x i)) < ⊤ := by
    intro i
    have hi := Host.reduce_andi_all _ _ hr h0 _ e i
    change Ideal.cmp .olt (max (x i) (-(x i))) (Ideal.ofBits .f32 0x7F800000#32) = 1#1 at hi
    rw [ofBits_inf] at hi
    by_contra hn
    have h0' : Ideal.cmp .olt (max (x i) (-(x i))) ⊤ = 0#1 := by
      unfold Ideal.cmp
      simp [hn]
    rw [h0'] at hi
    exact absurd hi (by decide)
  choose r hr' using fun i => exists_real_of_abs_lt_top (x i) (hall i)
  exact ⟨r, funext hr'⟩

/-- The precondition gives: every entry of every input array is a real number. -/
theorem real_of_pre
    (x0 : FVec Ideal S64x512x768 .f32) (x1 : FVec Ideal S768x512 .f32) (x2 : FVec Ideal S512 .f32)
    (x3 : FVec Ideal S512x512 .f32) (x4 : FVec Ideal S512 .f32) (x5 : FVec Ideal S512x768 .f32) (x6 : FVec Ideal S768 .f32)
    (h : Cert.Pre_finite_inputs.fn (F := Ideal) x0 x1 x2 x3 x4 x5 x6 = fun _ => 1#1) :
    IsReal x0 ∧ IsReal x1 ∧ IsReal x2 ∧ IsReal x3 ∧ IsReal x4 ∧ IsReal x5 ∧ IsReal x6 := by
  have e := congrFun h ValueIdx.ix0
  dsimp only [fn, fn_part1] at e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨isReal_of_all x0 _ _ _ e0, isReal_of_all x1 _ _ _ e1, isReal_of_all x2 _ _ _ e2,
    isReal_of_all x3 _ _ _ e3, isReal_of_all x4 _ _ _ e4, isReal_of_all x5 _ _ _ e5,
    isReal_of_all x6 _ _ _ e6⟩

end Cert.Fin7

end
-- ==== Proof.Spec.lean ====
/-
  The mathematics of the certificate, with no program in it.

  The network is three dense layers, each followed by a rectifier. The reference applies every layer to all 512
  nodes of a batch row and then averages over the nodes; the kernel first averages the input over the nodes and
  then applies the three layers to the averaged row. Over the reals the two agree:

    (1/512) Σ_n Σ_k h(n,k) · w(k)  =  Σ_k ((1/512) Σ_n h(n,k)) · w(k)      (the sum is linear),
    (1/512) Σ_n a                   =  a                                    (a row constant in n is its own mean),

  so after the first layer every node carries the same row and the later averages change nothing. Both laws need
  the entries to be real numbers (on the extended reals a product does not distribute over a sum at infinities),
  which is what the precondition gives.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-! ## The shapes -/

abbrev Sx : Shape := ⟨3, ![64, 512, 768]⟩
abbrev Sw1 : Shape := ⟨2, ![768, 512]⟩
abbrev Sb : Shape := ⟨1, ![512]⟩
abbrev Sw2 : Shape := ⟨2, ![512, 512]⟩
abbrev Sw3 : Shape := ⟨2, ![512, 768]⟩
abbrev Sb3 : Shape := ⟨1, ![768]⟩
abbrev Sout : Shape := ⟨3, ![64, 128, 768]⟩

/-! ## The network over the reals -/

/-- One dense layer and the rectifier: `max (Σ_k a k · w k + bias) 0`. -/
def layerR {K : ℕ} (a w : Fin K → ℝ) (bias : ℝ) : ℝ := max (∑ k, a k * w k + bias) 0

/-- The mean of the input over its 512 nodes. -/
def meanx (x : Sx.Idx → ℝ) (b : Fin 64) (c : Fin 768) : ℝ := (∑ n : Fin 512, x (ix3 b n c)) / 512

/-- The first hidden row computed from an input row `a`. -/
def row1 (a : Fin 768 → ℝ) (w1 : Sw1.Idx → ℝ) (b1 : Sb.Idx → ℝ) (j : Fin 512) : ℝ :=
  layerR a (fun c => w1 (ix2 c j)) (b1 (ix1 j))

/-- The second hidden row. -/
def row2 (a : Fin 768 → ℝ) (w1 : Sw1.Idx → ℝ) (b1 : Sb.Idx → ℝ) (w2 : Sw2.Idx → ℝ) (b2 : Sb.Idx → ℝ) (j : Fin 512) : ℝ :=
  layerR (row1 a w1 b1) (fun k => w2 (ix2 k j)) (b2 (ix1 j))

/-- The output row. -/
def row3 (a : Fin 768 → ℝ) (w1 : Sw1.Idx → ℝ) (b1 : Sb.Idx → ℝ) (w2 : Sw2.Idx → ℝ) (b2 : Sb.Idx → ℝ)
    (w3 : Sw3.Idx → ℝ) (b3 : Sb3.Idx → ℝ) (o : Fin 768) : ℝ :=
  layerR (row2 a w1 b1 w2 b2) (fun k => w3 (ix2 k o)) (b3 (ix1 o))

/-- The network's output for batch row `b`: the three layers applied to the mean of the row's nodes. -/
def outv (x : Sx.Idx → ℝ) (w1 : Sw1.Idx → ℝ) (b1 : Sb.Idx → ℝ) (w2 : Sw2.Idx → ℝ) (b2 : Sb.Idx → ℝ)
    (w3 : Sw3.Idx → ℝ) (b3 : Sb3.Idx → ℝ) (b : Fin 64) (o : Fin 768) : ℝ :=
  row3 (meanx x b) w1 b1 w2 b2 w3 b3 o

/-- The result array: entry `(b, n, o)` is the output row of batch row `b` at `o`, whatever the node `n`. -/
def G (x : Sx.Idx → ℝ) (w1 : Sw1.Idx → ℝ) (b1 : Sb.Idx → ℝ) (w2 : Sw2.Idx → ℝ) (b2 : Sb.Idx → ℝ)
    (w3 : Sw3.Idx → ℝ) (b3 : Sb3.Idx → ℝ) : Sout.Idx → EReal :=
  fun i => ((outv x w1 b1 w2 b2 w3 b3 ⟨(i 0).val, (i 0).isLt⟩ ⟨(i 2).val, (i 2).isLt⟩ : ℝ) : EReal)

/-! ## Real numbers inside the extended reals -/

theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The word of `512.0` denotes the real 512. -/
theorem ofBits_512 : Ideal.ofBits .f32 0x44000000#32 = ((512 : ℝ) : EReal) := by
  simp [Ideal.ofBits, Ideal.ieee, -EReal.coe_mul]; norm_num

/-- Dividing a real by 512 on the extended reals is the real quotient. -/
theorem div_512 (s : ℝ) : Ideal.div (s : EReal) ((512 : ℝ) : EReal) = ((s / 512 : ℝ) : EReal) := by
  rw [Ideal.div_coe (by norm_num : (512 : ℝ) ≠ 0), ← EReal.coe_mul]
  congr 1; ring

theorem max_coe_zero (a : ℝ) : max (a : EReal) 0 = ((max a 0 : ℝ) : EReal) := by
  rw [← EReal.coe_zero]
  exact (EReal.coe_strictMono.monotone.map_max).symm

/-! ## One layer, on either side -/

/-- The kernel's layer on real entries: the product sum, the bias and the rectifier are the real ones. -/
theorem kern_layer {K : ℕ} (a w : Fin K → ℝ) (bias : ℝ) :
    max ((∑ k : Fin K, (a k : EReal) * (w k : EReal)) + (bias : EReal)) (0 : EReal)
      = ((layerR a w bias : ℝ) : EReal) := by
  simp only [← EReal.coe_mul]
  rw [coe_sum, ← EReal.coe_add, max_coe_zero]; rfl

/-- The kernel's mean on real entries. -/
theorem kern_mean (h : Fin 512 → ℝ) :
    Ideal.div (∑ n : Fin 512, (h n : EReal)) ((512 : ℝ) : EReal) = (((∑ n, h n) / 512 : ℝ) : EReal) := by
  rw [coe_sum, div_512]

/-- The mean over the nodes of the rows' product sums is the product sum of the mean row. -/
theorem mean_dot {K : ℕ} (h : Fin 512 → Fin K → ℝ) (w : Fin K → ℝ) :
    (∑ n : Fin 512, ∑ k : Fin K, h n k * w k) / 512 = ∑ k : Fin K, ((∑ n : Fin 512, h n k) / 512) * w k := by
  rw [Finset.sum_comm, Finset.sum_div]
  refine Finset.sum_congr rfl fun k _ => ?_
  rw [← Finset.sum_mul]; ring

/-- The reference's layer on real entries: the layer applied to every node, summed from 0 over the nodes and
    divided by 512, is the layer of the mean row. -/
theorem ref_layer {K : ℕ} (h : Fin 512 → Fin K → ℝ) (w : Fin K → ℝ) (bias : ℝ) :
    max (Ideal.div ((0 : EReal) + ∑ n : Fin 512, ∑ k : Fin K, (h n k : EReal) * (w k : EReal)) ((512 : ℝ) : EReal)
          + (bias : EReal)) (0 : EReal)
      = ((layerR (fun k => (∑ n : Fin 512, h n k) / 512) w bias : ℝ) : EReal) := by
  simp only [← EReal.coe_mul]
  simp only [coe_sum]
  rw [zero_add, div_512, mean_dot, ← EReal.coe_add, max_coe_zero]; rfl

/-- A row that is the same at every node is its own mean. -/
theorem mean_const (a : ℝ) : (∑ _n : Fin 512, a) / 512 = a := by
  rw [Finset.sum_const, Finset.card_univ, Fintype.card_fin, nsmul_eq_mul]; norm_num

end Cert.Gcn

end
-- ==== Proof.RefValue.lean ====
/-
  The reference program's result at real-valued inputs.

  The reference applies each dense layer to every one of the 512 nodes, sums over the node axis starting from 0,
  divides by 512, adds the bias, copies the row back to all 512 nodes and applies the rectifier; after three such
  layers it keeps the first 128 nodes. On real entries each layer is the layer of the mean row
  (the mean of the product sums is the product sum of the means), and from the second layer on the rows are the
  same at every node, so the mean returns the row itself. Hence every node of batch row b carries
  row3 (meanx x b) ..., which is the entry of G.
-/
import proofs.«140486_j90683939487935_1_alg».proof.Proof.Gen.ReferenceIdeal.Read
import proofs.«140486_j90683939487935_1_alg».proof.Proof.Spec
import Idealize.ShloMosaic.PureOps.Ideal
import Idealize.ShloMosaic.PureOps.Ideal.Laws
import Idealize.ShloMosaic.Lib.ValueIdx

noncomputable section

namespace Cert.ReferenceIdeal.RefValue

open Cert.ReferenceIdeal Cert.ReferenceIdeal.Read Cert.Gcn Idealize.ShloMosaic Idealize.ShloMosaic.ValueIdx

/-- First layer: every node of batch row `b` carries the first hidden row of the mean input row. -/
theorem layer1 (x : Sx.Idx → ℝ) (w1 : Sw1.Idx → ℝ) (b1 : Sb.Idx → ℝ) (i : S64x512x512.Idx) :
    Read.val_main_v9 (F := Ideal) (fun i => (x i : EReal)) (fun i => (w1 i : EReal)) (fun i => (b1 i : EReal)) i
      = ((row1 (meanx x ⟨(i 0).val, (i 0).isLt⟩) w1 b1 ⟨(i 2).val, (i 2).isLt⟩ : ℝ) : EReal) := by
  simp only [val_main_v9_apply, val_main_v8_apply, val_main_v7_apply, val_main_v4_apply, val_main_v2_apply,
    val_main_v1_apply, val_main_v0_apply, val_main_v3_apply, val_main_cst_0_apply, val_main_v6_apply,
    val_main_v5_apply, val_main_call0_v0_apply, val_main_call0_cst_apply, val_main_cst_apply,
    Ideal.addf_def, Ideal.mulf_def, Ideal.hostDivf_def, Ideal.maximumf_def, Ideal.ofBits_def,
    Ideal.ofBits_zero_f32, ofBits_512]
  have hx : ∀ (n : Fin 512) (k : Fin 768),
      lidx_main_v0 (idx_main_v1 (idx_main_v2 (idx_main_v8 i)) n) k = ix3 ⟨(i 0).val, (i 0).isLt⟩ n k :=
    fun n k => funext fun a => Fin.ext (by match a with | ⟨0, _⟩ => rfl | ⟨1, _⟩ => rfl | ⟨2, _⟩ => rfl)
  have hw : ∀ (n : Fin 512) (k : Fin 768),
      ridx_main_v0 (idx_main_v1 (idx_main_v2 (idx_main_v8 i)) n) k = ix2 k ⟨(i 2).val, (i 2).isLt⟩ :=
    fun n k => funext fun a => Fin.ext (by match a with | ⟨0, _⟩ => rfl | ⟨1, _⟩ => rfl)
  have hb : idx_main_v5 (idx_main_v6 (idx_main_v8 i)) = ix1 ⟨(i 2).val, (i 2).isLt⟩ := funext fun a => Fin.ext (by match a with | ⟨0, _⟩ => rfl)
  simp only [hx, hw, hb]
  exact ref_layer (fun n k => x (ix3 ⟨(i 0).val, (i 0).isLt⟩ n k)) (fun k => w1 (ix2 k ⟨(i 2).val, (i 2).isLt⟩))
    (b1 (ix1 ⟨(i 2).val, (i 2).isLt⟩))

/-- Second layer: the first hidden rows are the same at every node, so their mean is that row. -/
theorem layer2 (x : Sx.Idx → ℝ) (w1 : Sw1.Idx → ℝ) (b1 : Sb.Idx → ℝ) (w2 : Sw2.Idx → ℝ) (b2 : Sb.Idx → ℝ)
    (i : S64x512x512.Idx) :
    Read.val_main_v19 (F := Ideal) (fun i => (x i : EReal)) (fun i => (w1 i : EReal)) (fun i => (b1 i : EReal))
        (fun i => (w2 i : EReal)) (fun i => (b2 i : EReal)) i
      = ((row2 (meanx x ⟨(i 0).val, (i 0).isLt⟩) w1 b1 w2 b2 ⟨(i 2).val, (i 2).isLt⟩ : ℝ) : EReal) := by
  simp only [val_main_v19_apply, val_main_v18_apply, val_main_v17_apply, val_main_v14_apply, val_main_v12_apply,
    val_main_v11_apply, val_main_v10_apply, val_main_v13_apply, val_main_cst_2_apply, val_main_v16_apply,
    val_main_v15_apply, val_main_call1_v0_apply, val_main_call1_cst_apply, val_main_cst_1_apply,
    Ideal.addf_def, Ideal.mulf_def, Ideal.hostDivf_def, Ideal.maximumf_def, Ideal.ofBits_def,
    Ideal.ofBits_zero_f32, ofBits_512]
  have hh : ∀ (n : Fin 512) (k : Fin 512),
      Read.val_main_v9 (F := Ideal) (fun i => (x i : EReal)) (fun i => (w1 i : EReal)) (fun i => (b1 i : EReal))
          (lidx_main_v10 (idx_main_v11 (idx_main_v12 (idx_main_v18 i)) n) k)
        = ((row1 (meanx x ⟨(i 0).val, (i 0).isLt⟩) w1 b1 k : ℝ) : EReal) :=
    fun n k => layer1 x w1 b1 _
  have hw : ∀ (n : Fin 512) (k : Fin 512),
      ridx_main_v10 (idx_main_v11 (idx_main_v12 (idx_main_v18 i)) n) k = ix2 k ⟨(i 2).val, (i 2).isLt⟩ :=
    fun n k => funext fun a => Fin.ext (by match a with | ⟨0, _⟩ => rfl | ⟨1, _⟩ => rfl)
  have hb : idx_main_v15 (idx_main_v16 (idx_main_v18 i)) = ix1 ⟨(i 2).val, (i 2).isLt⟩ := funext fun a => Fin.ext (by match a with | ⟨0, _⟩ => rfl)
  simp only [hh, hw, hb]
  refine (ref_layer (fun _ k => row1 (meanx x ⟨(i 0).val, (i 0).isLt⟩) w1 b1 k)
    (fun k => w2 (ix2 k ⟨(i 2).val, (i 2).isLt⟩)) (b2 (ix1 ⟨(i 2).val, (i 2).isLt⟩))).trans ?_
  simp only [mean_const]
  rfl

/-- Third layer, the same way: the second hidden rows are the same at every node. -/
theorem layer3 (x : Sx.Idx → ℝ) (w1 : Sw1.Idx → ℝ) (b1 : Sb.Idx → ℝ) (w2 : Sw2.Idx → ℝ) (b2 : Sb.Idx → ℝ)
    (w3 : Sw3.Idx → ℝ) (b3 : Sb3.Idx → ℝ) (i : S64x512x768.Idx) :
    Read.val_main_v29 (F := Ideal) (fun i => (x i : EReal)) (fun i => (w1 i : EReal)) (fun i => (b1 i : EReal))
        (fun i => (w2 i : EReal)) (fun i => (b2 i : EReal)) (fun i => (w3 i : EReal)) (fun i => (b3 i : EReal)) i
      = ((row3 (meanx x ⟨(i 0).val, (i 0).isLt⟩) w1 b1 w2 b2 w3 b3 ⟨(i 2).val, (i 2).isLt⟩ : ℝ) : EReal) := by
  simp only [val_main_v29_apply, val_main_v28_apply, val_main_v27_apply, val_main_v24_apply, val_main_v22_apply,
    val_main_v21_apply, val_main_v20_apply, val_main_v23_apply, val_main_cst_4_apply, val_main_v26_apply,
    val_main_v25_apply, val_main_call2_v0_apply, val_main_call2_cst_apply, val_main_cst_3_apply,
    Ideal.addf_def, Ideal.mulf_def, Ideal.hostDivf_def, Ideal.maximumf_def, Ideal.ofBits_def,
    Ideal.ofBits_zero_f32, ofBits_512]
  have hh : ∀ (n : Fin 512) (k : Fin 512),
      Read.val_main_v19 (F := Ideal) (fun i => (x i : EReal)) (fun i => (w1 i : EReal)) (fun i => (b1 i : EReal))
          (fun i => (w2 i : EReal)) (fun i => (b2 i : EReal))
          (lidx_main_v20 (idx_main_v21 (idx_main_v22 (idx_main_v28 i)) n) k)
        = ((row2 (meanx x ⟨(i 0).val, (i 0).isLt⟩) w1 b1 w2 b2 k : ℝ) : EReal) :=
    fun n k => layer2 x w1 b1 w2 b2 _
  have hw : ∀ (n : Fin 512) (k : Fin 512),
      ridx_main_v20 (idx_main_v21 (idx_main_v22 (idx_main_v28 i)) n) k = ix2 k ⟨(i 2).val, (i 2).isLt⟩ :=
    fun n k => funext fun a => Fin.ext (by match a with | ⟨0, _⟩ => rfl | ⟨1, _⟩ => rfl)
  have hb : idx_main_v25 (idx_main_v26 (idx_main_v28 i)) = ix1 ⟨(i 2).val, (i 2).isLt⟩ := funext fun a => Fin.ext (by match a with | ⟨0, _⟩ => rfl)
  simp only [hh, hw, hb]
  refine (ref_layer (fun _ k => row2 (meanx x ⟨(i 0).val, (i 0).isLt⟩) w1 b1 w2 b2 k)
    (fun k => w3 (ix2 k ⟨(i 2).val, (i 2).isLt⟩)) (b3 (ix1 ⟨(i 2).val, (i 2).isLt⟩))).trans ?_
  simp only [mean_const]
  rfl

/-- The reference's result: the slice keeps the first 128 nodes, each of which carries the output row. -/
theorem ref_eq (x : Sx.Idx → ℝ) (w1 : Sw1.Idx → ℝ) (b1 : Sb.Idx → ℝ) (w2 : Sw2.Idx → ℝ) (b2 : Sb.Idx → ℝ)
    (w3 : Sw3.Idx → ℝ) (b3 : Sb3.Idx → ℝ) :
    Read.val_main_v30 (F := Ideal) (fun i => (x i : EReal)) (fun i => (w1 i : EReal)) (fun i => (b1 i : EReal))
      (fun i => (w2 i : EReal)) (fun i => (b2 i : EReal)) (fun i => (w3 i : EReal)) (fun i => (b3 i : EReal))
      = G x w1 b1 w2 b2 w3 b3 := by
  funext i
  rw [val_main_v30_apply, layer3]
  rfl

end Cert.ReferenceIdeal.RefValue

end
-- ==== Proof.KernelValue.lean ====
/-
  The kernel program's buffers along its run. The program is two kernel regions and two host broadcasts. After the
  broadcasts the result buffer holds the second region's [64, 768] output repeated over 128 nodes. The second region
  has one grid point and each of its windows' one block is the whole array, so what it writes back is its body's
  result of the whole arrays it was entered with: the averaged input and the six weight and bias arrays.
-/
import proofs.«140486_j90683939487935_1_alg».proof.Proof.KernelRun
import proofs.«140486_j90683939487935_1_alg».proof.Proof.Spec
import Idealize.ShloMosaic.Lib.Pipeline.Value
import Idealize.ShloMosaic.Lib.StableHlo.Run
import Idealize.ShloMosaic.Lib.ValueIdx

set_option maxRecDepth 16384

noncomputable section

namespace Cert.KernelIdeal.KValue

open Cert.KernelIdeal Cert.KernelIdeal.Gen Cert.KernelIdeal.Named
open Idealize.ShloMosaic Idealize.ShloMosaic.TcCoe Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-- After the two host broadcasts the result buffer holds the second region's output row repeated over the 128 nodes. -/
theorem tail_eq (c : Dev nD) :
    (V3 m ρ c main_v3 : S64x128x768.Idx → Elt F .f32) =
      broadcastInDim S64x128x768 ![0, 1, 2] bcast_S64x1x768_S64x128x768_0_1_2
        (broadcastInDim S64x1x768 ![0, 2] bcast_S64x768_S64x1x768_0_2 (V2 m ρ c main_v1)) := by
  show StableHlo.after hostOps2 (W2 m ρ c) (Proc.devRef .tc main_v3) = _
  after_results

/-- The second region's output array at its exit is what its one grid point wrote back. -/
theorem v1_eq (c : Dev nD) : V2 m ρ c main_v1 = (dat1 (V1 m ρ) c).arrAt 7 cfg1.N :=
  W2_arr m ρ c 7

/-- The first region's output array at its exit. -/
theorem v0_eq (c : Dev nD) : V1 m ρ c main_v0 = (dat0 (V0 m ρ) c).arrAt 1 cfg0.N :=
  W1_arr m ρ c 1

/-! ## The second region: one grid point, every block the whole array -/

section Region1
variable (V : (c : Dev nD) → (b : Ref sig .tc) → Buf (Elt F) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- Every index map of the second region sends its one grid point to block 0 on every axis. -/
theorem idx_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0 :=
  (by decide +kernel : ∀ t : Fin grid1.N, _)

/-- The averaged input, read through the region's one block, is the whole array. -/
theorem blk1_0 (c : Dev nD) (t : Fin cfg1.N) : (iblk1 V c 0 t : Vec F S64x768 .f32) = (V c main_v0 : Vec F S64x768 .f32) := by
  obtain ⟨e0, e1, -⟩ := idx_facts1 t
  funext j
  show V c main_v0 (((cfg1.win 0).blk t).view.emb j) = V c main_v0 j
  refine congrArg (V c main_v0) (funext fun a => Fin.ext ?_)
  match a with
  | ⟨0, _⟩ => show win1_0.index t (0 : Fin 2) * 64 + 1 * (j 0).val = (j 0).val; omega
  | ⟨1, _⟩ => show win1_0.index t (1 : Fin 2) * 768 + 1 * (j 1).val = (j 1).val; omega

theorem blk1_1 (c : Dev nD) (t : Fin cfg1.N) : (iblk1 V c 1 t : Vec F S768x512 .f32) = (V c main_arg1 : Vec F S768x512 .f32) := by
  obtain ⟨e00, e01, e10, e11, e20, e30, e31, e40, e50, e51, e60, e70, e71⟩ := idx_facts1 t
  funext j
  show V c main_arg1 (((cfg1.win 1).blk t).view.emb j) = V c main_arg1 j
  refine congrArg (V c main_arg1) (funext fun a => Fin.ext ?_)
  match a with
  | ⟨0, _⟩ => show win1_1.index t (0 : Fin 2) * 768 + 1 * (j 0).val = (j 0).val; omega
  | ⟨1, _⟩ => show win1_1.index t (1 : Fin 2) * 512 + 1 * (j 1).val = (j 1).val; omega

theorem blk1_2 (c : Dev nD) (t : Fin cfg1.N) : (iblk1 V c 2 t : Vec F S512 .f32) = (V c main_arg2 : Vec F S512 .f32) := by
  obtain ⟨e00, e01, e10, e11, e20, e30, e31, e40, e50, e51, e60, e70, e71⟩ := idx_facts1 t
  funext j
  show V c main_arg2 (((cfg1.win 2).blk t).view.emb j) = V c main_arg2 j
  refine congrArg (V c main_arg2) (funext fun a => Fin.ext ?_)
  match a with
  | ⟨0, _⟩ => show win1_2.index t (0 : Fin 1) * 512 + 1 * (j 0).val = (j 0).val; omega

theorem blk1_3 (c : Dev nD) (t : Fin cfg1.N) : (iblk1 V c 3 t : Vec F S512x512 .f32) = (V c main_arg3 : Vec F S512x512 .f32) := by
  obtain ⟨e00, e01, e10, e11, e20, e30, e31, e40, e50, e51, e60, e70, e71⟩ := idx_facts1 t
  funext j
  show V c main_arg3 (((cfg1.win 3).blk t).view.emb j) = V c main_arg3 j
  refine congrArg (V c main_arg3) (funext fun a => Fin.ext ?_)
  match a with
  | ⟨0, _⟩ => show win1_3.index t (0 : Fin 2) * 512 + 1 * (j 0).val = (j 0).val; omega
  | ⟨1, _⟩ => show win1_3.index t (1 : Fin 2) * 512 + 1 * (j 1).val = (j 1).val; omega

theorem blk1_4 (c : Dev nD) (t : Fin cfg1.N) : (iblk1 V c 4 t : Vec F S512 .f32) = (V c main_arg4 : Vec F S512 .f32) := by
  obtain ⟨e00, e01, e10, e11, e20, e30, e31, e40, e50, e51, e60, e70, e71⟩ := idx_facts1 t
  funext j
  show V c main_arg4 (((cfg1.win 4).blk t).view.emb j) = V c main_arg4 j
  refine congrArg (V c main_arg4) (funext fun a => Fin.ext ?_)
  match a with
  | ⟨0, _⟩ => show win1_4.index t (0 : Fin 1) * 512 + 1 * (j 0).val = (j 0).val; omega

theorem blk1_5 (c : Dev nD) (t : Fin cfg1.N) : (iblk1 V c 5 t : Vec F S512x768 .f32) = (V c main_arg5 : Vec F S512x768 .f32) := by
  obtain ⟨e00, e01, e10, e11, e20, e30, e31, e40, e50, e51, e60, e70, e71⟩ := idx_facts1 t
  funext j
  show V c main_arg5 (((cfg1.win 5).blk t).view.emb j) = V c main_arg5 j
  refine congrArg (V c main_arg5) (funext fun a => Fin.ext ?_)
  match a with
  | ⟨0, _⟩ => show win1_5.index t (0 : Fin 2) * 512 + 1 * (j 0).val = (j 0).val; omega
  | ⟨1, _⟩ => show win1_5.index t (1 : Fin 2) * 768 + 1 * (j 1).val = (j 1).val; omega

theorem blk1_6 (c : Dev nD) (t : Fin cfg1.N) : (iblk1 V c 6 t : Vec F S768 .f32) = (V c main_arg6 : Vec F S768 .f32) := by
  obtain ⟨e00, e01, e10, e11, e20, e30, e31, e40, e50, e51, e60, e70, e71⟩ := idx_facts1 t
  funext j
  show V c main_arg6 (((cfg1.win 6).blk t).view.emb j) = V c main_arg6 j
  refine congrArg (V c main_arg6) (funext fun a => Fin.ext ?_)
  match a with
  | ⟨0, _⟩ => show win1_6.index t (0 : Fin 1) * 768 + 1 * (j 0).val = (j 0).val; omega

/-- The second region's body applied to the whole arrays it reads. -/
abbrev G1 (c : Dev nD) : Vec F S64x768 .f32 :=
  k1_pay1 (V c main_v0 : Vec F S64x768 .f32) (V c main_arg1 : Vec F S768x512 .f32) (V c main_arg2 : Vec F S512 .f32)
    (V c main_arg3 : Vec F S512x512 .f32) (V c main_arg4 : Vec F S512 .f32) (V c main_arg5 : Vec F S512x768 .f32)
    (V c main_arg6 : Vec F S768 .f32)

/-- What the one grid point writes back is the body's result of the whole arrays, read through the whole block. -/
theorem flushed1_7 (c : Dev nD) (t : Fin cfg1.N) :
    (dat1 V c).flushed 7 t = ((cfg1.win 7).blk t).view.read (Elt F) (G1 V c) := by
  show (cfg1.win 7).cut (grid1.coords t) ((dat1 V c).after 7 t) = _
  rw [after1_7]
  unfold out1_7
  rw [View.canon_unit_zero hz2]
  simp only [View.ld_unit_zero (S := S64x768) hz2, View.ld_unit_zero (S := S768x512) hz2, View.ld_unit_zero (S := S512) hz1,
    View.ld_unit_zero (S := S512x512) hz2, View.ld_unit_zero (S := S512x768) hz2, View.ld_unit_zero (S := S768) hz1]
  rw [blk1_0, blk1_1, blk1_2, blk1_3, blk1_4, blk1_5, blk1_6]
  obtain ⟨e00, e01, e10, e11, e20, e30, e31, e40, e50, e51, e60, e70, e71⟩ := idx_facts1 t
  funext j
  show G1 V c j = G1 V c (((cfg1.win 7).blk t).view.emb j)
  refine congrArg (G1 V c) (funext fun a => Fin.ext ?_)
  match a with
  | ⟨0, _⟩ => show (j 0).val = win1_7.index t (0 : Fin 2) * 64 + 1 * (j 0).val; omega
  | ⟨1, _⟩ => show (j 1).val = win1_7.index t (1 : Fin 2) * 768 + 1 * (j 1).val; omega

/-- An index of the output array is in point `t`'s block iff each coordinate is in the block's range on its axis. -/
theorem mem_blk1_7 (t : Fin cfg1.N) (i : S64x768.Idx) :
    i ∈ ((cfg1.win 7).blk t).view.set ↔ ∀ a : Fin 2, win1_7.index t a * S64x768.size a ≤ (i a).val ∧ (i a).val < win1_7.index t a * S64x768.size a + S64x768.size a := by
  show i ∈ ((View.whole main_v1).slice (win1_7.rect t)).set ↔ _
  rw [View.set_slice_whole, Rect.mem_set_unit]
  exact Iff.rfl

/-- An index of the output array lies in the one block. -/
theorem cover1_7' (i : S64x768.Idx) :
    ∃ t : Fin cfg1.N, (cfg1.win 7).flush t = true ∧ i ∈ ((cfg1.win 7).blk t).view.set := by
  have t0 : Fin cfg1.N := ⟨0, by decide⟩
  refine ⟨t0, flush1_7 t0, ?_⟩
  obtain ⟨e00, e01, e10, e11, e20, e30, e31, e40, e50, e51, e60, e70, e71⟩ := idx_facts1 t0
  rw [mem_blk1_7]
  intro a
  have hi0 : (i 0).val < 64 := (i 0).isLt
  have hi1 : (i 1).val < 768 := (i 1).isLt
  match a with
  | ⟨0, _⟩ => show win1_7.index t0 (0 : Fin 2) * 64 ≤ (i 0).val ∧ (i 0).val < win1_7.index t0 (0 : Fin 2) * 64 + 64; omega
  | ⟨1, _⟩ => show win1_7.index t0 (1 : Fin 2) * 768 ≤ (i 1).val ∧ (i 1).val < win1_7.index t0 (1 : Fin 2) * 768 + 768; omega

/-- The second region's output array at its exit is the body's result of the arrays it was entered with. -/
theorem final1 (c : Dev nD) : (dat1 V c).arrAt 7 cfg1.N = G1 V c :=
  (dat1 V c).arrAt_eq_of_cover 7 (G1 V c) (fun t _ => flushed1_7 V c t) (cover1_7' )

end Region1

end Cert.KernelIdeal.KValue

end
-- ==== Proof.KernelPay.lean ====
/-
  The two kernel bodies' payloads, read at an index at the ideal instance.

  Region 0's body takes a block of 8 batch rows, 512 nodes and 768 columns and stores its mean over the nodes: the sum over
  the node axis (from the zero word), divided by the splat of 512. Region 1's body applies three dense layers to the 64
  averaged rows: each layer is a plain matrix product into a zero accumulator, plus the bias row broadcast over the 64
  rows, then the maximum with the splat of 0. At the ideal instance a change of format is the identity, so the
  narrowing of the product's operands drops out, and every operation is the exact one on the extended reals; on real
  entries a layer is the specification's `layerR` of the row, and the three layers compose to `row3`.
-/
import proofs.«140486_j90683939487935_1_alg».proof.Proof.Gen.KernelIdeal.Skeleton
import proofs.«140486_j90683939487935_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Cert.Gcn Idealize.ShloMosaic Idealize.ShloMosaic.ValueIdx

/-! ## Region 0: the mean over the nodes -/

/-- Region 0's payload at row r, column c of its block: the sum over the block's 512 nodes, divided by 512. -/
theorem pay0_apply (v0 : Vec Ideal S8x512x768 .f32) (r : Fin 8) (c : Fin 768) :
    k0_pay1 (F := Ideal) v0 (ix2 r c) = Ideal.div (∑ n : Fin 512, v0 (ix3 r n c)) ((512 : ℝ) : EReal) := by
  unfold k0_pay1
  -- the quotient at an index is the quotient of the elements; the divisor is the splat of the word of 512.0
  show Ideal.div (multiReduction (F := Ideal) .add [1] S8x768 v0 0x00000000#32 reduces_S8x512x768_S8x768 (.inl rfl) rfl (ix2 r c))
      (Ideal.ofBits .f32 0x44000000#32) = _
  rw [ofBits_512]
  refine congrArg (Ideal.div · _) ?_
  -- the reduction over axis 1 at (r, c) is the sum over n of the block at the index with n inserted on axis 1
  refine (Ideal.multiReduction_add_single (φ := .f32) v0 0x00000000#32 reduces_S8x512x768_S8x768 (.inl rfl) rfl
    (ix2 r c)).trans ?_
  refine Finset.sum_congr rfl fun n _ => congrArg v0 ?_
  -- … and that index is (r, n, c), coordinate by coordinate
  funext a
  apply Fin.ext
  match a with
  | ⟨0, _⟩ => rfl
  | ⟨1, _⟩ => rfl
  | ⟨2, _⟩ => rfl

/-! ## Region 1: one dense layer at an index -/

/-- A plain matrix product `[M,K] × [K,N]` into the zero accumulator, read at `(b, j)`: the sum over the contracted
    coordinate `k` of the left operand at `(b, k)` times the right at `(k, j)`. The product's own contraction index
    is a one-axis multi-index; the sum is re-indexed through its one coordinate. -/
theorem plain_matmul_apply {M K N : ℕ} {φ₁ φ₂ : FTy} (l : FVec Ideal ⟨2, ![M, K]⟩ φ₁) (r : FVec Ideal ⟨2, ![K, N]⟩ φ₂)
    (b : Fin M) (j : Fin N) :
    FloatOps.matmul (DotDims.plain M K N) none l r (constant (F := Ideal) ⟨2, ![M, N]⟩ .f32 0x00000000#32) (ix2 b j)
      = ∑ k : Fin K, l (ix2 b k) * r (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  -- the left operand's index at output (b, j) and contraction coordinate k is (b, k) …
  have el : (DotDims.plain M K N).lhsIdx (ix2 b j) ((contrEquiv1 (DotDims.plain M K N) K rfl rfl).symm k) = ix2 b k :=
    funext fun a => Fin.ext (by
      match a with
      | ⟨0, _⟩ => rfl
      | ⟨1, _⟩ => exact hk)
  -- … and the right operand's is (k, j)
  have er : (DotDims.plain M K N).rhsIdx (ix2 b j) ((contrEquiv1 (DotDims.plain M K N) K rfl rfl).symm k) = ix2 k j :=
    funext fun a => Fin.ext (by
      match a with
      | ⟨0, _⟩ => exact hk
      | ⟨1, _⟩ => rfl)
  rw [el, er]

/-- One dense layer at an index: the product of the narrowed operands into the zero accumulator, plus the bias row
    (a `[H]` vector cast to `[1,H]` and broadcast over the `M` rows), under the maximum with the splat of the zero word,
    is `max (Σ_k l(b,k) · r(k,j) + bias(j)) 0` on the extended reals. -/
theorem dense_apply {M K H : ℕ} (l : FVec Ideal ⟨2, ![M, K]⟩ .f32) (r : FVec Ideal ⟨2, ![K, H]⟩ .f32)
    (bias : FVec Ideal ⟨1, ![H]⟩ .f32) (hlt : FTy.bits .bf16 < FTy.bits .f32)
    (hs : (⟨1, ![H]⟩ : Shape).ShapeCasts ⟨2, ![1, H]⟩) (hb : (⟨2, ![1, H]⟩ : Shape).Broadcasts ⟨2, ![M, H]⟩)
    (b : Fin M) (j : Fin H) :
    maximumf
        (addf
          (matmul (DotDims.plain M K H) none (truncf .bf16 l hlt) (truncf .bf16 r hlt)
            (constant (F := Ideal) ⟨2, ![M, H]⟩ .f32 0x00000000#32))
          (broadcastTo ⟨2, ![M, H]⟩ (shapeCast ⟨2, ![1, H]⟩ bias hs) hb))
        (broadcast ⟨2, ![M, H]⟩ (Scalar.ofBits (F := Ideal) .f32 0x00000000#32)) (ix2 b j)
      = max ((∑ k : Fin K, l (ix2 b k) * r (ix2 k j)) + bias (ix1 j)) 0 := by
  rw [maximumf_apply, addf_apply, broadcast_apply]
  -- the bias row at (b, j) is the bias at j
  rw [broadcastTo_1b_ab_apply, shapeCast_a_1a_apply]
  -- the product at (b, j); a narrowing of an operand is the identity on extended reals
  have hm := plain_matmul_apply (truncf .bf16 l hlt) (truncf .bf16 r hlt) b j
  simp only [truncf_apply] at hm
  show max (FloatOps.matmul (DotDims.plain M K H) none (truncf .bf16 l hlt) (truncf .bf16 r hlt)
      (constant (F := Ideal) ⟨2, ![M, H]⟩ .f32 0x00000000#32) (ix2 b j) + bias (ix1 j))
      (Ideal.ofBits .f32 0x00000000#32) = _
  rw [hm, Ideal.ofBits_zero_f32]

/-- The same layer on real entries: if the left operand's row `b` is the real row `lr`, and the weights and the bias are
    real, the layer at `(b, j)` is the specification's `layerR` of that row against column `j` of the weights. -/
theorem dense_real {M K H : ℕ} (l : FVec Ideal ⟨2, ![M, K]⟩ .f32) (lr : Fin K → ℝ) (b : Fin M)
    (hl : ∀ k : Fin K, l (ix2 b k) = ((lr k : ℝ) : EReal))
    (w : (⟨2, ![K, H]⟩ : Shape).Idx → ℝ) (bias : (⟨1, ![H]⟩ : Shape).Idx → ℝ) (hlt : FTy.bits .bf16 < FTy.bits .f32)
    (hs : (⟨1, ![H]⟩ : Shape).ShapeCasts ⟨2, ![1, H]⟩) (hb : (⟨2, ![1, H]⟩ : Shape).Broadcasts ⟨2, ![M, H]⟩) (j : Fin H) :
    maximumf
        (addf
          (matmul (DotDims.plain M K H) none (truncf .bf16 l hlt)
            (truncf .bf16 (fun i => ((w i : ℝ) : EReal) : FVec Ideal ⟨2, ![K, H]⟩ .f32) hlt)
            (constant (F := Ideal) ⟨2, ![M, H]⟩ .f32 0x00000000#32))
          (broadcastTo ⟨2, ![M, H]⟩ (shapeCast ⟨2, ![1, H]⟩ (fun i => ((bias i : ℝ) : EReal) : FVec Ideal ⟨1, ![H]⟩ .f32) hs) hb))
        (broadcast ⟨2, ![M, H]⟩ (Scalar.ofBits (F := Ideal) .f32 0x00000000#32)) (ix2 b j)
      = ((layerR lr (fun k => w (ix2 k j)) (bias (ix1 j)) : ℝ) : EReal) := by
  rw [dense_apply]
  simp only [hl]
  exact kern_layer lr (fun k => w (ix2 k j)) (bias (ix1 j))

/-! ## Region 1: the three layers -/

/-- Region 1's payload on real entries is the specification's three layers of the input row. -/
theorem pay1_apply (a : S64x768.Idx → ℝ) (w1 : Sw1.Idx → ℝ) (b1 : Sb.Idx → ℝ) (w2 : Sw2.Idx → ℝ) (b2 : Sb.Idx → ℝ)
    (w3 : Sw3.Idx → ℝ) (b3 : Sb3.Idx → ℝ) (b : Fin 64) (o : Fin 768) :
    k1_pay1 (F := Ideal) (fun i => (a i : EReal)) (fun i => (w1 i : EReal)) (fun i => (b1 i : EReal))
      (fun i => (w2 i : EReal)) (fun i => (b2 i : EReal)) (fun i => (w3 i : EReal)) (fun i => (b3 i : EReal)) (ix2 b o)
      = ((row3 (fun c => a (ix2 b c)) w1 b1 w2 b2 w3 b3 o : ℝ) : EReal) := by
  unfold k1_pay1
  -- the third layer, on the second layer's row
  refine dense_real _ (row2 (fun c => a (ix2 b c)) w1 b1 w2 b2) b (fun k => ?_) w3 b3 _ _ _ o
  -- the second layer, on the first layer's row
  refine dense_real _ (row1 (fun c => a (ix2 b c)) w1 b1) b (fun k' => ?_) w2 b2 _ _ _ k
  -- the first layer, on the input row; the cast of the input to its own shape is the identity
  refine dense_real _ (fun c => a (ix2 b c)) b (fun c => ?_) w1 b1 _ _ _ k'
  rw [shapeCast_self]

end Cert.KernelIdeal.Pay

end
-- ==== Proof.KernelMean.lean ====
/-
  The first region's output array. The region walks 8 grid points; point t stages batch rows 8t … 8t+7 of the input
  (all 512 nodes, all 768 columns) and writes back the same 8 rows of the [64, 768] output: for each row and column
  the sum over the 512 nodes divided by 512. The 8 blocks tile the output, so after the region the output array is
  the mean over the nodes of the whole input array, entry by entry.
-/
import proofs.«140486_j90683939487935_1_alg».proof.Proof.KernelValue
import proofs.«140486_j90683939487935_1_alg».proof.Proof.KernelPay
import Idealize.ShloMosaic.PureOps.Ideal.Laws

set_option maxRecDepth 16384

noncomputable section

namespace Cert.KernelIdeal.KMean

open Cert.KernelIdeal Cert.KernelIdeal.Gen Cert.KernelIdeal.Named Cert.KernelIdeal.KValue Cert.Gcn
open Idealize.ShloMosaic Idealize.ShloMosaic.TcCoe Idealize.SL.Sem Idealize.ShloMosaic.ValueIdx
open Idealize.ShloMosaic.Pipeline (Dat Cfg Window)
open Cert.KernelIdeal.Pay

variable (V : (c : Dev nD) → (b : Ref sig .tc) → Buf (Elt Ideal) ((c : Thread nD τ).loc b))

theorem hz3 : (![0, 0, 0] : Fin 3 → Nat) = fun _ => 0 := funext fun a => by fin_cases a <;> rfl

/-- The mean over the 512 nodes of a whole input array, entry by entry. -/
def G0 (x : Vec Ideal S64x512x768 .f32) : Vec Ideal S64x768 .f32 :=
  fun i => Ideal.div (∑ n : Fin 512, x (ix3 (⟨(i 0).val, (i 0).isLt⟩ : Fin 64) n (⟨(i 1).val, (i 1).isLt⟩ : Fin 768))) ((512 : ℝ) : EReal)

/-- The first region's index maps over its 8 grid points: the input block and the output block move together along
    the batch axis and stay at 0 on the others. -/
theorem idx_facts0 : ∀ t : Fin cfg0.N,
    win0_0.index t (0 : Fin 3) = win0_1.index t (0 : Fin 2) ∧ win0_0.index t (1 : Fin 3) = 0 ∧ win0_0.index t (2 : Fin 3) = 0
    ∧ win0_1.index t (1 : Fin 2) = 0 ∧ win0_1.index t (0 : Fin 2) ≤ 7 :=
  (by decide +kernel : ∀ t : Fin grid0.N, _)

/-- Every block row of the output is some point's. -/
theorem idx_onto0 : ∀ q0 : Fin 8, ∃ t : Fin cfg0.N, win0_1.index t = ![q0.val, 0] :=
  (by decide +kernel : ∀ q0 : Fin 8, ∃ t : Fin grid0.N, win0_1.index t = ![q0.val, 0])

/-- What point `t` writes back is block `t` of the mean of the input array as the region finds it. -/
theorem flushed0_1 (c : Dev nD) (t : Fin cfg0.N) :
    (dat0 V c).flushed 1 t = ((cfg0.win 1).blk t).view.read (Elt Ideal) (G0 (V c main_arg0 : Vec Ideal S64x512x768 .f32)) := by
  show (cfg0.win 1).cut (grid0.coords t) ((dat0 V c).after 1 t) = _
  rw [after0_1]
  unfold out0_1
  rw [View.canon_unit_zero hz2]
  simp only [View.ld_unit_zero (S := S8x512x768) hz3]
  obtain ⟨e0, e1, e2, e3, e4⟩ := idx_facts0 t
  funext j
  obtain ⟨p, q, rfl⟩ : ∃ (p : Fin 8) (q : Fin 768), j = ix2 p q := ⟨j 0, j 1, eq_ix2 j⟩
  refine (pay0_apply (iblk0 V c 0 t) p q).trans ?_
  show _ = G0 (V c main_arg0 : Vec Ideal S64x512x768 .f32) (((cfg0.win 1).blk t).view.emb (ix2 p q))
  unfold G0
  refine congrArg (fun s => Ideal.div s ((512 : ℝ) : EReal)) (Finset.sum_congr rfl fun n _ => ?_)
  show V c main_arg0 (((cfg0.win 0).blk t).view.emb (ix3 p n q)) = V c main_arg0 _
  refine congrArg (V c main_arg0) (funext fun a => Fin.ext ?_)
  match a with
  | ⟨0, _⟩ => show win0_0.index t (0 : Fin 3) * 8 + 1 * p.val = win0_1.index t (0 : Fin 2) * 8 + 1 * p.val; omega
  | ⟨1, _⟩ => show win0_0.index t (1 : Fin 3) * 512 + 1 * n.val = n.val; omega
  | ⟨2, _⟩ => show win0_0.index t (2 : Fin 3) * 768 + 1 * q.val = win0_1.index t (1 : Fin 2) * 768 + 1 * q.val; omega

/-- An index of the output array is in point `t`'s block iff each coordinate is in the block's range on its axis. -/
theorem mem_blk0_1 (t : Fin cfg0.N) (i : S64x768.Idx) :
    i ∈ ((cfg0.win 1).blk t).view.set ↔ ∀ a : Fin 2, win0_1.index t a * S8x768.size a ≤ (i a).val ∧ (i a).val < win0_1.index t a * S8x768.size a + S8x768.size a := by
  show i ∈ ((View.whole main_v0).slice (win0_1.rect t)).set ↔ _
  rw [View.set_slice_whole, Rect.mem_set_unit]
  exact Iff.rfl

/-- The 8 blocks of 8 batch rows cover the output array: row `r` is in the block of point `r / 8`. -/
theorem cover0_1' (i : S64x768.Idx) :
    ∃ t : Fin cfg0.N, (cfg0.win 1).flush t = true ∧ i ∈ ((cfg0.win 1).blk t).view.set := by
  have hi0 : (i 0).val < 64 := (i 0).isLt
  have hi1 : (i 1).val < 768 := (i 1).isLt
  obtain ⟨t, ht⟩ := idx_onto0 ⟨(i 0).val / 8, by omega⟩
  have q0 : win0_1.index t (0 : Fin 2) = (i 0).val / 8 := congrFun ht 0
  have q1 : win0_1.index t (1 : Fin 2) = 0 := congrFun ht 1
  refine ⟨t, flush0_1 t, ?_⟩
  rw [mem_blk0_1]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 768 ≤ (i 1).val ∧ (i 1).val < win0_1.index t (1 : Fin 2) * 768 + 768; omega

/-- The first region's output array at its exit is the mean over the nodes of the input array it was entered with. -/
theorem final0 (c : Dev nD) : (dat0 V c).arrAt 1 cfg0.N = G0 (V c main_arg0 : Vec Ideal S64x512x768 .f32) :=
  (dat0 V c).arrAt_eq_of_cover 1 (G0 (V c main_arg0 : Vec Ideal S64x512x768 .f32)) (fun t _ => flushed0_1 V c t) cover0_1'

end Cert.KernelIdeal.KMean

end
-- ==== Proof.KernelFinal.lean ====
/-
  The kernel program's result as one function of the launched arrays. The result buffer is written by two host
  broadcasts of the second region's [64, 768] output over 128 nodes; the second region's one grid point applies the
  three dense layers to the arrays it is entered with; of those the weights and biases are as launched and the
  averaged input is the first region's output, the mean over the nodes of the launched input. When the launched
  arrays hold real numbers this is the specification's array: at (b, n, o) the three layers of the mean row of b, at o.
-/
import proofs.«140486_j90683939487935_1_alg».proof.Proof.KernelMean

set_option maxRecDepth 16384

noncomputable section

namespace Cert.KernelIdeal.KFinal

open Cert.KernelIdeal Cert.KernelIdeal.Gen Cert.KernelIdeal.Named Cert.KernelIdeal.KValue Cert.KernelIdeal.KMean Cert.Gcn Cert.KernelIdeal.Pay
open Idealize.ShloMosaic Idealize.ShloMosaic.TcCoe Idealize.SL.Sem Idealize.ShloMosaic.ValueIdx

variable (m : (ℓ : Loc nD τ sig) → Buf (Elt Ideal) ℓ) (ρ : Dev nD → PrngReg)

/-! ## The second region is entered with the weights and biases as launched -/

theorem arg1_eq (c : Dev nD) : V1 m ρ c main_arg1 = m ((c : Thread nD τ).loc main_arg1) := W1_of_ne m ρ c main_arg1 (by decide)
theorem arg2_eq (c : Dev nD) : V1 m ρ c main_arg2 = m ((c : Thread nD τ).loc main_arg2) := W1_of_ne m ρ c main_arg2 (by decide)
theorem arg3_eq (c : Dev nD) : V1 m ρ c main_arg3 = m ((c : Thread nD τ).loc main_arg3) := W1_of_ne m ρ c main_arg3 (by decide)
theorem arg4_eq (c : Dev nD) : V1 m ρ c main_arg4 = m ((c : Thread nD τ).loc main_arg4) := W1_of_ne m ρ c main_arg4 (by decide)
theorem arg5_eq (c : Dev nD) : V1 m ρ c main_arg5 = m ((c : Thread nD τ).loc main_arg5) := W1_of_ne m ρ c main_arg5 (by decide)
theorem arg6_eq (c : Dev nD) : V1 m ρ c main_arg6 = m ((c : Thread nD τ).loc main_arg6) := W1_of_ne m ρ c main_arg6 (by decide)

/-- The averaged input the second region is entered with is the mean over the nodes of the launched input. -/
theorem xbar_eq (c : Dev nD) : V1 m ρ c main_v0 = G0 (m ((c : Thread nD τ).loc main_arg0) : Vec Ideal S64x512x768 .f32) :=
  (v0_eq m ρ c).trans (final0 (V0 m ρ) c)

/-- The mean of a real-valued input array is the real mean. -/
theorem G0_coe (x : Sx.Idx → ℝ) :
    G0 (fun i => (x i : EReal)) = fun j => ((meanx x ⟨(j 0).val, (j 0).isLt⟩ ⟨(j 1).val, (j 1).isLt⟩ : ℝ) : EReal) := by
  funext j
  unfold G0 meanx
  exact kern_mean _

/-- The result buffer of the kernel program, when the launched arrays hold real numbers, is the specification's array. -/
theorem result_eq (c : Dev nD) (x : Sx.Idx → ℝ) (w1 : Sw1.Idx → ℝ) (b1 : Sb.Idx → ℝ) (w2 : Sw2.Idx → ℝ) (b2 : Sb.Idx → ℝ)
    (w3 : Sw3.Idx → ℝ) (b3 : Sb3.Idx → ℝ)
    (h0 : m ((c : Thread nD τ).loc main_arg0) = fun i => (x i : EReal))
    (h1 : m ((c : Thread nD τ).loc main_arg1) = fun i => (w1 i : EReal))
    (h2 : m ((c : Thread nD τ).loc main_arg2) = fun i => (b1 i : EReal))
    (h3 : m ((c : Thread nD τ).loc main_arg3) = fun i => (w2 i : EReal))
    (h4 : m ((c : Thread nD τ).loc main_arg4) = fun i => (b2 i : EReal))
    (h5 : m ((c : Thread nD τ).loc main_arg5) = fun i => (w3 i : EReal))
    (h6 : m ((c : Thread nD τ).loc main_arg6) = fun i => (b3 i : EReal)) :
    V3 m ρ c main_v3 = G x w1 b1 w2 b2 w3 b3 := by
  rw [tail_eq, v1_eq, final1 (V1 m ρ) c]
  show broadcastInDim S64x128x768 ![0, 1, 2] bcast_S64x1x768_S64x128x768_0_1_2
        (broadcastInDim S64x1x768 ![0, 2] bcast_S64x768_S64x1x768_0_2
          (k1_pay1 (V1 m ρ c main_v0) (V1 m ρ c main_arg1) (V1 m ρ c main_arg2) (V1 m ρ c main_arg3) (V1 m ρ c main_arg4)
            (V1 m ρ c main_arg5) (V1 m ρ c main_arg6))) = _
  rw [xbar_eq, arg1_eq, arg2_eq, arg3_eq, arg4_eq, arg5_eq, arg6_eq, h0, h1, h2, h3, h4, h5, h6, G0_coe]
  funext i
  rw [broadcastInDim_apply _ bcast_S64x1x768_S64x128x768_0_1_2 _ i
      (fun a => match a with | ⟨0, _⟩ => ⟨(i 0).val, (i 0).isLt⟩ | ⟨1, _⟩ => ⟨0, Nat.one_pos⟩ | ⟨2, _⟩ => ⟨(i 2).val, (i 2).isLt⟩)
      (fun a => match a with
        | ⟨0, _⟩ => by show (i 0).val = if (64 : Nat) = 1 then 0 else (i 0).val; rw [if_neg (by decide)]
        | ⟨1, _⟩ => by show 0 = if (1 : Nat) = 1 then 0 else (i 1).val; rw [if_pos rfl]
        | ⟨2, _⟩ => by show (i 2).val = if (768 : Nat) = 1 then 0 else (i 2).val; rw [if_neg (by decide)])]
  rw [broadcastInDim_apply _ bcast_S64x768_S64x1x768_0_2 _ _
      (ix2 (⟨(i 0).val, (i 0).isLt⟩ : Fin 64) (⟨(i 2).val, (i 2).isLt⟩ : Fin 768))
      (fun a => match a with
        | ⟨0, _⟩ => by show (i 0).val = if (64 : Nat) = 1 then 0 else (i 0).val; rw [if_neg (by decide)]
        | ⟨1, _⟩ => by show (i 2).val = if (768 : Nat) = 1 then 0 else (i 2).val; rw [if_neg (by decide)])]
  exact pay1_apply _ w1 b1 w2 b2 w3 b3 _ _

end Cert.KernelIdeal.KFinal

end
-- ==== Proof.lean ====
/-
  A graph network of three layers on a fully connected graph: each layer applies a dense map to every node of a batch
  row, averages the result over the 512 nodes, adds a bias and applies the rectifier. The reference does exactly this,
  three times, and keeps 128 nodes. The kernel averages the input over the nodes once, applies the three dense layers
  with bias and rectifier to the averaged row, and copies the resulting row to 128 nodes.

  Over the reals the two agree: the average of the nodes' product sums is the product sum of the averaged row (a sum
  is linear), and after the first layer every node carries the same row, whose average is itself. On the extended
  reals these laws need real entries, which is what the precondition says of every input. So both programs end with
  the array whose entry (b, n, o) is the third layer of the mean row of batch row b, at o.

  The three frames are the generated ones (the reference's is its run with the result dropped), and no operation of
  the kernel was rewritten when it was idealized, so that claim is trivial.
-/
import proofs.«140486_j90683939487935_1_alg».proof.Defs
import proofs.«140486_j90683939487935_1_alg».proof.Proof.Gen.Kernel
import proofs.«140486_j90683939487935_1_alg».proof.Proof.Gen.Kernel.Skeleton
import proofs.«140486_j90683939487935_1_alg».proof.Proof.Gen.Kernel.Launch
import proofs.«140486_j90683939487935_1_alg».proof.Proof.Gen.Kernel.Points
import proofs.«140486_j90683939487935_1_alg».proof.Proof.Gen.Kernel.Frame
import proofs.«140486_j90683939487935_1_alg».proof.Proof.Gen.KernelIdeal
import proofs.«140486_j90683939487935_1_alg».proof.Proof.Gen.KernelIdeal.Skeleton
import proofs.«140486_j90683939487935_1_alg».proof.Proof.Gen.KernelIdeal.Launch
import proofs.«140486_j90683939487935_1_alg».proof.Proof.Gen.KernelIdeal.Points
import proofs.«140486_j90683939487935_1_alg».proof.Proof.Gen.KernelIdeal.Frame
import proofs.«140486_j90683939487935_1_alg».proof.Proof.Gen.ReferenceIdeal
import proofs.«140486_j90683939487935_1_alg».proof.Proof.Gen.ReferenceIdeal.Run
import proofs.«140486_j90683939487935_1_alg».proof.Proof.Gen.ReferenceIdeal.Read
import proofs.«140486_j90683939487935_1_alg».proof.Proof.Gen.Pre_finite_inputs
import Idealize.ShloMosaic.Adequacy
import Idealize.ShloMosaic.Init
import proofs.«140486_j90683939487935_1_alg».proof.Proof.Finite
import proofs.«140486_j90683939487935_1_alg».proof.Proof.RefValue
import proofs.«140486_j90683939487935_1_alg».proof.Proof.KernelFinal

noncomputable section

namespace Cert.Proof

open Idealize.ShloMosaic Idealize.ShloMosaic.TcCoe Idealize.SL.Sem

/-- The word-level kernel terminates, faults nowhere and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a host program: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition every input entry is a real number, so both programs end at the specification's array:
    the kernel's three layers of the mean row, the reference's mean of the three layers applied node by node. -/
theorem algebraic : Cert.algebraic_KernelIdeal_ReferenceIdeal := by
  intro m ρ m' ρ' hpre hagree
  refine ⟨fun c => Cert.KernelIdeal.Named.V3 m ρ c Cert.KernelIdeal.main_v3, Cert.KernelIdeal.Named.run_named m ρ, ?_⟩
  refine (θ_run Cert.ReferenceIdeal.defs _ _).mono (fun _ h c => ⟨(h c).1.trans ?_, (h c).2⟩)
    (Cert.ReferenceIdeal.Value.run (F := Ideal) m' ρ')
  obtain ⟨⟨x, hx⟩, ⟨w1, hw1⟩, ⟨b1, hb1⟩, ⟨w2, hw2⟩, ⟨b2, hb2⟩, ⟨w3, hw3⟩, ⟨b3, hb3⟩⟩ :=
    Cert.Fin7.real_of_pre _ _ _ _ _ _ _ (hpre c)
  refine (Cert.ReferenceIdeal.Read.val_main_v30_eq _ _ _ _ _ _ _).trans ?_
  rw [(hagree c).1, (hagree c).2.1, (hagree c).2.2.1, (hagree c).2.2.2.1, (hagree c).2.2.2.2.1,
    (hagree c).2.2.2.2.2.1, (hagree c).2.2.2.2.2.2, hx, hw1, hb1, hw2, hb2, hw3, hb3]
  exact (Cert.ReferenceIdeal.RefValue.ref_eq x w1 b1 w2 b2 w3 b3).trans
    (Cert.KernelIdeal.KFinal.result_eq m ρ c x w1 b1 w2 b2 w3 b3 hx hw1 hb1 hw2 hb2 hw3 hb3).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
